-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_v13 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v13 main_v16
  let main_c_6 : IVec S_ 32 := constantI S_ 32 50000#32
  let main_v18 : IVec S800000 32 := broadcastInDim S800000 ![] bcast_S_S800000 main_c_6
  let main_v19 : IVec S800000 1 := cmpi .slt main_arg1 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v17 main_v20
  main_v21

def fn {F : FTy → Type} [FloatOps F] (main_arg0 : FVec F S50000x64 .f32) (main_arg1 : IVec S800000 32) (main_arg2 : IVec S800000 32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 4294917296#32
  let main_v14 : IVec S800000 32 := broadcastInDim S800000 ![] bcast_S_S800000 main_c_4
  let main_v15 : IVec S800000 1 := cmpi .sge main_arg1 main_v14
  let main_c_5 : IVec S_ 1 := constantI S_ 1 1#1
  fn_part1 (F := F) main_arg1 main_v13 main_v15 main_c_5
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S64x128 : Shape := ⟨2, ![64, 128]⟩
abbrev S128x128 : Shape := ⟨2, ![128, 128]⟩
abbrev S25000x128 : Shape := ⟨2, ![25000, 128]⟩
abbrev S5000x128 : Shape := ⟨2, ![5000, 128]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩

abbrev nBuf : Space → Nat
  | .hbm => 44
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x128, .f32⟩
  | .hbm, ⟨9, _⟩ => ⟨S64x128, .f32⟩
  | .hbm, ⟨10, _⟩ => ⟨S128x128, .f32⟩
  | .hbm, ⟨11, _⟩ => ⟨S25000x128, .f32⟩
  | .hbm, ⟨12, _⟩ => ⟨S25000x128, .f32⟩
  | .hbm, ⟨13, _⟩ => ⟨S50000x64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x64, .f32⟩
  | .hbm, ⟨33, _⟩ => ⟨S800000x64, .i1⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S50000x64_S25000x128 : S50000x64.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S25000x128_S50000x64 : S25000x128.ShapeCasts S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x128_S5000x128_1_0_0_1_n_n_wf : DotDims.WF S5000x128 S128x128 S5000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .f32⟩
  | .hbm, ⟨15, _⟩ => ⟨S50000x64, .f32⟩
  | .hbm, ⟨16, _⟩ => ⟨S800000x1, .i32⟩
  | .hbm, ⟨17, _⟩ => ⟨S50000x64, .f32⟩
  | .hbm, ⟨18, _⟩ => ⟨S64x64, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRegion.lean ====
/-
  The kernel's one region: the packed feature rows `[25000, 128]` times the packed weight `[128, 128]`,
  computed five blocks of 5000 rows at a time.  Each block's stored value is the matrix product of the block
  of rows with the whole weight (the change of format before the product is the identity on extended reals,
  and the accumulator is zero), and the five blocks tile the output, so the output array is the product of
  the whole arrays, entry by entry a sum over the 128 packed columns.
-/
import proofs.«406994_j64390149702456_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The product of packed rows `X` with a packed weight `W2`: entry `(r, c)` is `Σ_k X(r, k) · W2(k, c)`. -/
def mm (X : S25000x128.Idx → EReal) (W2 : S128x128.Idx → EReal) : S25000x128.Idx → EReal :=
  fun i => ∑ k : Fin 128, X (ix2 ⟨(i 0).val, idx2_lt0 i⟩ k) * W2 (ix2 k ⟨(i 1).val, idx2_lt1 i⟩)

/-! ## The block product at an index -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of the left block at column `k`. -/
abbrev lidx (i : S5000x128.Idx) (k : Fin 128) : S5000x128.Idx := fun a => match a with
  | ⟨0, _⟩ => ⟨(i 0).val, (i 0).isLt⟩
  | ⟨1, _⟩ => ⟨k.val, k.isLt⟩
/-- Row `k` of the weight at column `i 1`. -/
abbrev ridx (i : S5000x128.Idx) (k : Fin 128) : S128x128.Idx := fun a => match a with
  | ⟨0, _⟩ => ⟨k.val, k.isLt⟩
  | ⟨1, _⟩ => ⟨(i 1).val, (i 1).isLt⟩

/-- The body's stored value at an index: the sum over the 128 columns of the block's row times the weight's column. -/
theorem pay_apply (x0 : Vec Ideal S5000x128 .f32) (x1 : Vec Ideal S128x128 .f32) (i : S5000x128.Idx) :
    k0_pay1 (F := Ideal) x0 x1 i = ∑ k : Fin 128, x0 (lidx i k) * x1 (ridx i k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lidx i k := funext fun a => Fin.ext (by
    match a with
    | ⟨0, _⟩ => exact lhs_0 _ _
    | ⟨1, _⟩ => exact (lhs_1 _ _).trans hk)
  have er : dot_S5000x128_S128x128_S5000x128_1_0_0_1_n_n.rhsIdx i ((ValueIdx.contrEquiv1 dot_S5000x128_S128x128_S5000x128_1_0_0_1_n_n 128 rfl rfl).symm k) = ridx i k := funext fun a => Fin.ext (by
    match a with
    | ⟨0, _⟩ => exact (rhs_0 _ _).trans hk
    | ⟨1, _⟩ => exact rhs_1 _ _)
  rw [el, er, shapeCast_self, shapeCast_self]
  rfl

/-! ## From the blocks to the array -/

/-- The packed rows as the region finds them. -/
abbrev xarr (c : Dev nD) : S25000x128.Idx → EReal := V m c main_v5
/-- The packed weight as the region finds it. -/
abbrev warr (c : Dev nD) : S128x128.Idx → EReal := V m c main_v4

theorem hz : (![0, 0] : Fin 2 → Nat) = fun _ => 0 := funext fun a => by fin_cases a <;> rfl

/-- The printed index maps over the grid: the rows' block and the output's block are block `t`; the weight's is block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the arrays as the region finds them. -/
theorem flushed_eq (c : Dev nD) (t : Fin cfg0.N) :
    (dats m 0 c).flushed 2 t = ((cfg0.win 2).blk t).view.read (Elt Ideal) (mm (xarr m c) (warr m c)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk m c 0 t) (iblk m c 1 t) j = mm (xarr m c) (warr m c) (((cfg0.win 2).blk t).view.emb j)
  refine (pay_apply (iblk m c 0 t) (iblk m c 1 t) j).trans ?_
  unfold mm
  refine Finset.sum_congr rfl fun k _ => ?_
  have h0 : ((cfg0.win 0).blk t).view.emb (lidx j k) = ix2 ⟨((((cfg0.win 2).blk t).view.emb j) 0).val, idx2_lt0 _⟩ k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ridx j k) = ix2 k ⟨((((cfg0.win 2).blk t).view.emb j) 1).val, idx2_lt1 _⟩ := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show xarr m c (((cfg0.win 0).blk t).view.emb (lidx j k)) * warr m c (((cfg0.win 1).blk t).view.emb (ridx j k)) = _
  rw [h0, h1]

/-- An index of the output array is in point `t`'s block iff each coordinate is in the block's range on its axis. -/
theorem mem_blk (t : Fin cfg0.N) (i : S25000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- Every row of the output is in the block of the point `row / 5000`. -/
theorem cover (i : S25000x128.Idx) : ∃ t : Fin cfg0.N, (cfg0.win 2).flush t = true ∧ i ∈ ((cfg0.win 2).blk t).view.set := by
  have hi0 : (i 0).val < 25000 := (i 0).isLt
  have hi1 : (i 1).val < 128 := (i 1).isLt
  have hN : grid0.N = 5 := N_0
  refine ⟨⟨(i 0).val / 5000, by show (i 0).val / 5000 < grid0.N; omega⟩, flush0_2 _, ?_⟩
  rw [mem_blk]
  obtain ⟨e0, e1, e2, e3, e4, e5⟩ := idx_facts ⟨(i 0).val / 5000, by show (i 0).val / 5000 < grid0.N; omega⟩
  intro a
  match a with
  | ⟨0, _⟩ => show win0_2.index _ (0 : Fin 2) * 5000 ≤ (i 0).val ∧ (i 0).val < win0_2.index _ (0 : Fin 2) * 5000 + 5000; simp only [] at e4; omega
  | ⟨1, _⟩ => show win0_2.index _ (1 : Fin 2) * 128 ≤ (i 1).val ∧ (i 1).val < win0_2.index _ (1 : Fin 2) * 128 + 128; omega

/-- THE OUTPUT ARRAY after the region: the product of the packed rows and the packed weight as the region finds them. -/
theorem final (c : Dev nD) : (dats m 0 c).arrAt 2 cfg0.N = mm (xarr m c) (warr m c) :=
  (dats m 0 c).arrAt_eq_of_cover 2 (mm (xarr m c) (warr m c)) (fun t _ => flushed_eq m c t) (cover)

end Cert.KernelIdeal.Hand

end
-- ==== Proof.Spec.lean ====
/-
  The mathematics of the claim, free of both programs.

  A graph has 50000 nodes with 64 features each and 800000 edges.  Edge `e` reads the feature row of
  its source node and adds it into the row of its destination node; the aggregated rows then go
  through a linear map `h ↦ h · Wᵀ + b`.  The kernel applies the linear map BEFORE the aggregation
  (row by row, `feature · Wᵀ`), the reference AFTER it.  Both read a source index the same way
  (a signed word, negative values counted from the end, then clamped into the table), and both drop
  an edge whose destination is outside the table.  The two orders agree because a finite sum of real
  products distributes: `Σ_e Σ_k f(s e, k) · w(j, k) = Σ_k (Σ_e f(s e, k)) · w(j, k)`.
-/
import Idealize.ShloMosaic.PureOps.Ideal
import Idealize.ShloMosaic.Lib.ValueIdx

noncomputable section

namespace Cert.Gcn

open Idealize.ShloMosaic Idealize.ShloMosaic.ValueIdx

/-- Node features `[50000, 64]`. -/
abbrev SN : Shape := ⟨2, ![50000, 64]⟩
/-- One index word per edge, as a column `[800000, 1]`. -/
abbrev SE1 : Shape := ⟨2, ![800000, 1]⟩
/-- One row of 64 values per edge. -/
abbrev SE : Shape := ⟨2, ![800000, 64]⟩
/-- The weight matrix `[64, 64]` (row `j` = output feature `j`). -/
abbrev SW : Shape := ⟨2, ![64, 64]⟩
/-- The bias `[64]`. -/
abbrev SB : Shape := ⟨1, ![64]⟩
/-- One index word per edge, flat. -/
abbrev SEd : Shape := ⟨1, ![800000]⟩

/-- A source word as both programs normalise it: a negative word counts from the end of the table. -/
def normWord (x : BitVec 32) : BitVec 32 :=
  Scalar.select (IntOp.cmpi .slt x 0#32) (IntOp.addi x 50000#32) x

/-- The column of normalised source words. -/
def normIdx (src : IVec SEd 32) : IVec SE1 32 := fun i => normWord (src (ix1 ⟨(i 0).val, idx2_lt0 i⟩))

/-- The column of destination words. -/
def colIdx (dst : IVec SEd 32) : IVec SE1 32 := fun i => dst (ix1 ⟨(i 0).val, idx2_lt0 i⟩)

/-- The table row edge `e`'s index word selects: read signed and clamped into `[0, 49999]`. -/
def rowOf (idx : IVec SE1 32) (e : Fin 800000) : Fin 50000 :=
  ⟨min (idx (ix2 e (0 : Fin 1))).toInt.toNat 49999, by omega⟩

/-- The edges that land on node `v`: those whose destination word, read signed and not clamped, is `v`. -/
def landsOn (didx : IVec SE1 32) (v : Fin 50000) : Finset (Fin 800000) :=
  Finset.univ.filter fun e => (didx (ix2 e (0 : Fin 1))).toInt = (v.val : Int)

/-- Row `n` of the features through the linear map, output feature `j`: `Σ_k f(n, k) · w(j, k)`. -/
def linAt (feat : SN.Idx → EReal) (W : SW.Idx → EReal) (n : Fin 50000) (j : Fin 64) : EReal :=
  ∑ k : Fin 64, feat (ix2 n k) * W (ix2 j k)

/-- Transform, then aggregate, then add the bias (the kernel's order). -/
def aggLin (feat : SN.Idx → EReal) (W : SW.Idx → EReal) (b : SB.Idx → EReal) (nidx didx : IVec SE1 32)
    (v : Fin 50000) (j : Fin 64) : EReal :=
  ((0 : EReal) + ∑ e ∈ landsOn didx v, linAt feat W (rowOf nidx e) j) + b (ix1 j)

/-- Aggregate, then transform, then add the bias (the reference's order). -/
def linAgg (feat : SN.Idx → EReal) (W : SW.Idx → EReal) (b : SB.Idx → EReal) (nidx didx : IVec SE1 32)
    (v : Fin 50000) (j : Fin 64) : EReal :=
  (∑ k : Fin 64, ((0 : EReal) + ∑ e ∈ landsOn didx v, feat (ix2 (rowOf nidx e) k)) * W (ix2 j k)) + b (ix1 j)

/-- The result array both programs end with, as one function of the five inputs. -/
def result (feat : SN.Idx → EReal) (src dst : IVec SEd 32) (W : SW.Idx → EReal) (b : SB.Idx → EReal) : SN.Idx → EReal :=
  fun i => linAgg feat W b (normIdx src) (colIdx dst) ⟨(i 0).val, idx2_lt0 i⟩ ⟨(i 1).val, idx2_lt1 i⟩

theorem result_apply (feat : SN.Idx → EReal) (src dst : IVec SEd 32) (W : SW.Idx → EReal) (b : SB.Idx → EReal)
    (v : Fin 50000) (j : Fin 64) :
    result feat src dst W b (ix2 v j) = linAgg feat W b (normIdx src) (colIdx dst) v j := rfl

end Cert.Gcn

end
-- ==== Proof.KPre.lean ====
/-
  What the region is launched on: the weight packed block-diagonally, `[[Wᵀ, 0], [0, Wᵀ]]` of shape `[128, 128]`,
  and the features re-laid two node rows to one packed row, `[50000, 64] → [25000, 128]` (a row-major re-reading:
  packed row `r` holds node `2r` in columns 0–63 and node `2r + 1` in columns 64–127).
-/
import proofs.«406994_j64390149702456_2_alg».proof.Proof.Gen.KernelIdeal.Frame
import proofs.«406994_j64390149702456_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The packed weight as the program builds it: two row blocks, each the transpose beside a zero block. -/
def packW (w : S64x64.Idx → EReal) : S128x128.Idx → EReal :=
  concatenate S128x128 0
    [⟨S64x128, concatenate S64x128 1
        [⟨S64x64, transpose S64x64 [1, 0] w transposes_S64x64_S64x64_1_0⟩,
          ⟨S64x64, broadcastInDim S64x64 ![] bcast_S_S64x64 (constant (F := Ideal) S_ .f32 0x00000000#32)⟩]
        concatenates_S64x64_S64x64_S64x128_d1⟩,
      ⟨S64x128, concatenate S64x128 1
        [⟨S64x64, broadcastInDim S64x64 ![] bcast_S_S64x64 (constant (F := Ideal) S_ .f32 0x00000000#32)⟩,
          ⟨S64x64, transpose S64x64 [1, 0] w transposes_S64x64_S64x64_1_0⟩]
        concatenates_S64x64_S64x64_S64x128_d1⟩]
    concatenates_S64x128_S64x128_S128x128_d0

/-- The packed features as the program builds them: the row-major re-reading. -/
def packX (x : S50000x64.Idx → EReal) : S25000x128.Idx → EReal :=
  shapeCast S25000x128 x shapeCasts_S50000x64_S25000x128

/-- The region finds the packed weight of the launch contents of the weight argument. -/
theorem V_main_v4 (c : Dev nD) :
    (V m c main_v4 : S128x128.Idx → EReal) = packW (m ((c : Thread nD τ).loc main_arg3)) := by
  dsimp only [Gen.V, Gen.V0]
  simp only [Gen.hostOps0, List.flatten_cons, List.flatten_nil, List.append_nil, List.cons_append, List.nil_append]
  after_results
  unfold packW
  rfl

/-- The region finds the packed features of the launch contents of the feature argument. -/
theorem V_main_v5 (c : Dev nD) :
    (V m c main_v5 : S25000x128.Idx → EReal) = packX (m ((c : Thread nD τ).loc main_arg0)) := by
  dsimp only [Gen.V, Gen.V0]
  simp only [Gen.hostOps0, List.flatten_cons, List.flatten_nil, List.append_nil, List.cons_append, List.nil_append]
  after_results
  unfold packX
  rfl

/-- The packed weight at `(k, c)`: inside a diagonal block the transposed weight, outside zero. -/
theorem packW_apply (w : S64x64.Idx → EReal) (k c : Fin 128) :
    packW w (ix2 k c) = if k.val / 64 = c.val / 64
      then w (ix2 (⟨c.val % 64, Nat.mod_lt _ (by decide)⟩ : Fin 64) (⟨k.val % 64, Nat.mod_lt _ (by decide)⟩ : Fin 64)) else 0 := by
  unfold packW
  have hk := k.isLt
  have hc := c.isLt
  -- the transposed weight at (p, q), with p ≡ k and q ≡ c modulo 64, is the weight at (c % 64, k % 64)
  have hT : ∀ (p q : Fin 64), p.val = k.val % 64 → q.val = c.val % 64 →
      transpose S64x64 [1, 0] w transposes_S64x64_S64x64_1_0 (ix2 p q)
        = w (ix2 (⟨c.val % 64, Nat.mod_lt _ (by decide)⟩ : Fin 64) (⟨k.val % 64, Nat.mod_lt _ (by decide)⟩ : Fin 64)) := by
    intro p q hp hq
    exact transpose_apply [1, 0] w transposes_S64x64_S64x64_1_0 (ix2 p q) _ (fun b => match b with
      | ⟨0, _⟩ => hp.symm
      | ⟨1, _⟩ => hq.symm)
  -- the zero block is zero everywhere
  have hZ : ∀ (i : S64x64.Idx),
      broadcastInDim S64x64 ![] bcast_S_S64x64 (constant (F := Ideal) S_ .f32 0x00000000#32) i = (0 : EReal) := by
    intro i
    show Ideal.ofBits .f32 0x00000000#32 = 0
    exact Ideal.ofBits_zero_f32
  by_cases hk64 : k.val < 64
  · -- the upper row block
    refine (concatenate_pair_apply_left (t := S128x128) (s₁ := S64x128) (s₂ := S64x128) (0 : Fin 2) _ _ concatenates_S64x128_S64x128_S128x128_d0 (ix2 k c) rfl
      (ix2 (⟨k.val, hk64⟩ : Fin 64) c) (fun b => match b with
        | ⟨0, _⟩ => rfl
        | ⟨1, _⟩ => rfl)).trans ?_
    by_cases hc64 : c.val < 64
    · -- the diagonal block on the left
      refine (concatenate_pair_apply_left (t := S64x128) (s₁ := S64x64) (s₂ := S64x64) (1 : Fin 2) _ _ concatenates_S64x64_S64x64_S64x128_d1 (ix2 (⟨k.val, hk64⟩ : Fin 64) c) rfl
        (ix2 (⟨k.val, hk64⟩ : Fin 64) (⟨c.val, hc64⟩ : Fin 64)) (fun b => match b with
          | ⟨0, _⟩ => rfl
          | ⟨1, _⟩ => rfl)).trans ?_
      rw [if_pos (by omega)]
      exact hT _ _ (by show k.val = k.val % 64; omega) (by show c.val = c.val % 64; omega)
    · -- the zero block on the right
      refine (concatenate_pair_apply_right (t := S64x128) (s₁ := S64x64) (s₂ := S64x64) (1 : Fin 2) _ _ concatenates_S64x64_S64x64_S64x128_d1 (ix2 (⟨k.val, hk64⟩ : Fin 64) c) rfl rfl
        (ix2 (⟨k.val, hk64⟩ : Fin 64) (⟨c.val - 64, by omega⟩ : Fin 64)) (fun b => match b with
          | ⟨0, _⟩ => fun _ => rfl
          | ⟨1, _⟩ => fun h => absurd rfl h) (by show c.val - 64 + 64 = c.val; omega)).trans ?_
      rw [if_neg (by omega)]
      exact hZ _
  · -- the lower row block
    refine (concatenate_pair_apply_right (t := S128x128) (s₁ := S64x128) (s₂ := S64x128) (0 : Fin 2) _ _ concatenates_S64x128_S64x128_S128x128_d0 (ix2 k c) rfl rfl
      (ix2 (⟨k.val - 64, by omega⟩ : Fin 64) c) (fun b => match b with
        | ⟨0, _⟩ => fun h => absurd rfl h
        | ⟨1, _⟩ => fun _ => rfl) (by show k.val - 64 + 64 = k.val; omega)).trans ?_
    by_cases hc64 : c.val < 64
    · -- the zero block on the left
      refine (concatenate_pair_apply_left (t := S64x128) (s₁ := S64x64) (s₂ := S64x64) (1 : Fin 2) _ _ concatenates_S64x64_S64x64_S64x128_d1 (ix2 (⟨k.val - 64, by omega⟩ : Fin 64) c) rfl
        (ix2 (⟨k.val - 64, by omega⟩ : Fin 64) (⟨c.val, hc64⟩ : Fin 64)) (fun b => match b with
          | ⟨0, _⟩ => rfl
          | ⟨1, _⟩ => rfl)).trans ?_
      rw [if_neg (by omega)]
      exact hZ _
    · -- the diagonal block on the right
      refine (concatenate_pair_apply_right (t := S64x128) (s₁ := S64x64) (s₂ := S64x64) (1 : Fin 2) _ _ concatenates_S64x64_S64x64_S64x128_d1 (ix2 (⟨k.val - 64, by omega⟩ : Fin 64) c) rfl rfl
        (ix2 (⟨k.val - 64, by omega⟩ : Fin 64) (⟨c.val - 64, by omega⟩ : Fin 64)) (fun b => match b with
          | ⟨0, _⟩ => fun _ => rfl
          | ⟨1, _⟩ => fun h => absurd rfl h) (by show c.val - 64 + 64 = c.val; omega)).trans ?_
      rw [if_pos (by omega)]
      exact hT _ _ (by show k.val - 64 = k.val % 64; omega) (by show c.val - 64 = c.val % 64; omega)

/-- The packed features at `(r, k)`: node `2r + k / 64`, feature `k % 64`. -/
theorem packX_apply (x : S50000x64.Idx → EReal) (r : Fin 25000) (k : Fin 128) :
    packX x (ix2 r k) = x (ix2 (⟨2 * r.val + k.val / 64, by have := r.isLt; have := k.isLt; omega⟩ : Fin 50000)
      (⟨k.val % 64, Nat.mod_lt _ (by decide)⟩ : Fin 64)) := by
  unfold packX
  -- (r, k) in [25000, 128] and (2r + k / 64, k % 64) in [50000, 64] have the same row-major position
  refine shapeCast_apply x shapeCasts_S50000x64_S25000x128 (ix2 r k) _ ?_
  rw [Shape.rowMajor_val_two, Shape.rowMajor_val_two]
  show (2 * r.val + k.val / 64) * 64 + k.val % 64 = r.val * 128 + k.val
  have := k.isLt
  omega

end Cert.KernelIdeal.Hand

end
-- ==== Proof.KTail.lean ====
/-
  What the program does after its region, as one function of the region's output array and of the three arguments
  the tail reads: the packed product is re-read as `[50000, 64]` (node rows again), the source rows are taken
  (a take that fills a row with the not-a-number junk value when its normalised index is outside the table), the
  taken rows are added into the destination rows, and the bias is added once per node.
-/
import proofs.«406994_j64390149702456_2_alg».proof.Proof.Gen.KernelIdeal.Frame
import proofs.«406994_j64390149702456_2_alg».proof.Proof.KRegion
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The column of normalised source words, as the take builds it. -/
def nidxK (x1 : IVec S800000 32) : IVec S800000x1 32 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The take's in-range test, one bit per edge. -/
def maskK (x1 : IVec S800000 32) : IVec S800000 1 :=
  Host.reduce IntOp.andi
    (andi (cmpi .sge (nidxK x1) (broadcastInDim S800000x1 ![] bcast_S_S800000x1 (constantI S_ 32 0#32)))
      (cmpi .sle (nidxK x1) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take of table `T` at the source words: the gathered row where the test holds, the junk value elsewhere. -/
def takeK (T : S50000x64.Idx → EReal) (x1 : IVec S800000 32) : S800000x64.Idx → EReal :=
  select (broadcastInDim S800000x64 ![0] bcast_S800000_S800000x64_0 (maskK x1))
    (Host.gather gather_S50000x64_S800000x1_S800000x64_1_0_n_n_0_1_164 T (nidxK x1))
    (broadcastInDim S800000x64 ![] bcast_S_S800000x64 (constant (F := Ideal) S_ .f32 0x7FC00000#32))

/-- The whole tail: re-read the product as node rows, take, add into destinations, add the bias. -/
def tailK (Pm : S25000x128.Idx → EReal) (x1 x2 : IVec S800000 32) (x4 : S64.Idx → EReal) : S50000x64.Idx → EReal :=
  addf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 x2)
      (takeK (shapeCast S50000x64 Pm shapeCasts_S25000x128_S50000x64) x1))
    (broadcastInDim S50000x64 ![0, 1] bcast_S1x64_S50000x64_0_1 (broadcastInDim S1x64 ![1] bcast_S64_S1x64_1 x4))

/-! ## The tail's operations, run in stretches from ANY buffer contents

The tail is 31 operations.  Each stretch below is run from arbitrary contents `V`, and its result is stated over what
`V` holds at the few buffers the stretch reads; the stretches then compose. -/

/-- Running one list of operations after another is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih _

/-- The take's first eight operations: the column of normalised source words. -/
abbrev opsA : List (HloOp τ sig (Elt Ideal)) := (hostOps1_1 (F := Ideal)).take 8
/-- Its next ten: the in-range test. -/
abbrev opsB : List (HloOp τ sig (Elt Ideal)) := ((hostOps1_1 (F := Ideal)).drop 8).take 10
/-- Its last five: the gather, and the choice between the gathered row and the junk value. -/
abbrev opsC : List (HloOp τ sig (Elt Ideal)) := (hostOps1_1 (F := Ideal)).drop 18

theorem ops_split : (hostOps1_1 (F := Ideal)) = opsA ++ (opsB ++ opsC) := rfl

/-- The in-range test as a function of the index column. -/
def maskOf (nidx : IVec S800000x1 32) : IVec S800000 1 :=
  Host.reduce IntOp.andi
    (andi (cmpi .sge nidx (broadcastInDim S800000x1 ![] bcast_S_S800000x1 (constantI S_ 32 0#32)))
      (cmpi .sle nidx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

theorem maskK_eq (x1 : IVec S800000 32) : maskK x1 = maskOf (nidxK x1) := rfl

section Stretches

variable (V : Valuation τ sig (Elt Ideal))

set_option maxHeartbeats 1000000 in
theorem A_v5 : StableHlo.after opsA V (Proc.devRef .tc main_call0_v5) = nidxK (V (Proc.devRef .tc main_arg1)) := by
  simp only [opsA, Gen.hostOps1_1, List.take_succ_cons, List.take_zero]
  after_results
  simp only [TRef.toBuf, TRef.ofBuf, cast_eq]
  unfold nidxK
  rfl

set_option maxHeartbeats 1000000 in
theorem A_v7 : StableHlo.after opsA V (Proc.devRef .tc main_v7) = V (Proc.devRef .tc main_v7) := by
  simp only [opsA, Gen.hostOps1_1, List.take_succ_cons, List.take_zero]
  after_results

set_option maxHeartbeats 1000000 in
theorem B_v12 : StableHlo.after opsB V (Proc.devRef .tc main_call0_v12) = maskOf (V (Proc.devRef .tc main_call0_v5)) := by
  simp only [opsB, Gen.hostOps1_1, List.drop_succ_cons, List.drop_zero, List.take_succ_cons, List.take_zero]
  after_results
  simp only [TRef.toBuf, TRef.ofBuf, cast_eq]
  unfold maskOf
  rfl

set_option maxHeartbeats 1000000 in
theorem B_v5 : StableHlo.after opsB V (Proc.devRef .tc main_call0_v5) = V (Proc.devRef .tc main_call0_v5) := by
  simp only [opsB, Gen.hostOps1_1, List.drop_succ_cons, List.drop_zero, List.take_succ_cons, List.take_zero]
  after_results

set_option maxHeartbeats 1000000 in
theorem B_v7 : StableHlo.after opsB V (Proc.devRef .tc main_v7) = V (Proc.devRef .tc main_v7) := by
  simp only [opsB, Gen.hostOps1_1, List.drop_succ_cons, List.drop_zero, List.take_succ_cons, List.take_zero]
  after_results

set_option maxHeartbeats 1000000 in
theorem C_v8 : StableHlo.after opsC V (Proc.devRef .tc main_v8)
    = select (broadcastInDim S800000x64 ![0] bcast_S800000_S800000x64_0 (V (Proc.devRef .tc main_call0_v12)))
        (Host.gather gather_S50000x64_S800000x1_S800000x64_1_0_n_n_0_1_164 (V (Proc.devRef .tc main_v7)) (V (Proc.devRef .tc main_call0_v5)))
        (broadcastInDim S800000x64 ![] bcast_S_S800000x64 (constant (F := Ideal) S_ .f32 0x7FC00000#32)) := by
  simp only [opsC, Gen.hostOps1_1, List.drop_succ_cons, List.drop_zero]
  after_results
  simp only [TRef.toBuf, TRef.ofBuf, cast_eq]

/-- The whole take, from any contents: the take of what `V` holds at the table and at the source words. -/
theorem take_v8 : StableHlo.after hostOps1_1 V (Proc.devRef .tc main_v8)
    = takeK (V (Proc.devRef .tc main_v7)) (V (Proc.devRef .tc main_arg1)) := by
  rw [ops_split, after_append, after_append, C_v8, B_v12, B_v7, B_v5, A_v5, A_v7]
  unfold takeK
  rw [maskK_eq]

set_option maxHeartbeats 2000000 in
theorem take_arg2 : StableHlo.after hostOps1_1 V (Proc.devRef .tc main_arg2) = V (Proc.devRef .tc main_arg2) := by
  simp only [Gen.hostOps1_1]
  after_results

set_option maxHeartbeats 2000000 in
theorem take_arg4 : StableHlo.after hostOps1_1 V (Proc.devRef .tc main_arg4) = V (Proc.devRef .tc main_arg4) := by
  simp only [Gen.hostOps1_1]
  after_results

theorem re_v7 : StableHlo.after hostOps1 V (Proc.devRef .tc main_v7)
    = shapeCast S50000x64 (V (Proc.devRef .tc main_v6)) shapeCasts_S25000x128_S50000x64 := by
  simp only [Gen.hostOps1]
  after_results
  rfl

theorem re_arg1 : StableHlo.after hostOps1 V (Proc.devRef .tc main_arg1) = V (Proc.devRef .tc main_arg1) := by
  simp only [Gen.hostOps1]
  after_results
theorem re_arg2 : StableHlo.after hostOps1 V (Proc.devRef .tc main_arg2) = V (Proc.devRef .tc main_arg2) := by
  simp only [Gen.hostOps1]
  after_results
theorem re_arg4 : StableHlo.after hostOps1 V (Proc.devRef .tc main_arg4) = V (Proc.devRef .tc main_arg4) := by
  simp only [Gen.hostOps1]
  after_results

set_option maxHeartbeats 1000000 in
theorem last_v14 : StableHlo.after hostOps1_2 V (Proc.devRef .tc main_v14)
    = addf (F := Ideal)
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (V (Proc.devRef .tc main_arg2)))
          (V (Proc.devRef .tc main_v8)))
        (broadcastInDim S50000x64 ![0, 1] bcast_S1x64_S50000x64_0_1
          (broadcastInDim S1x64 ![1] bcast_S64_S1x64_1 (V (Proc.devRef .tc main_arg4)))) := by
  simp only [Gen.hostOps1_2]
  after_results

end Stretches

/-- The tail's operations run from ANY buffer contents `Vw`: the result buffer ends at the tail's function of what `Vw`
    holds at the region's output array and at the three arguments the tail reads. -/
theorem tail_after (Vw : Valuation τ sig (Elt Ideal)) :
    StableHlo.after (List.flatten [hostOps1, hostOps1_1, hostOps1_2]) Vw (Proc.devRef .tc main_v14)
      = tailK (Vw (Proc.devRef .tc main_v6)) (Vw (Proc.devRef .tc main_arg1)) (Vw (Proc.devRef .tc main_arg2))
          (Vw (Proc.devRef .tc main_arg4)) := by
  rw [show List.flatten [hostOps1 (F := Ideal), hostOps1_1, hostOps1_2] = hostOps1 ++ (hostOps1_1 ++ hostOps1_2) from by
    simp only [List.flatten_cons, List.flatten_nil, List.append_nil]]
  rw [after_append, after_append, last_v14, take_v8, take_arg2, take_arg4, re_v7, re_arg1, re_arg2, re_arg4]
  rfl

/-- The result buffer after the tail is the tail's function of the region's output array and the arguments. -/
theorem tail_eq (c : Dev nD) :
    Pipeline.afterTail₀ cfgs (dats m) 0 (V0 m) [hostOps1, hostOps1_1, hostOps1_2] c main_v14
      = tailK ((dats m 0 c).arrAt 2 cfg0.N) (m ((c : Thread nD τ).loc main_arg1)) (m ((c : Thread nD τ).loc main_arg2))
          (m ((c : Thread nD τ).loc main_arg4)) := by
  have hP : Pipeline.withArrays (cfgs 0).spec c (V0 m c) (fun w => (dats m 0 c).arrAt w (cfgs 0).N) (Proc.devRef .tc main_v6)
      = (dats m 0 c).arrAt 2 cfg0.N := Pipeline.withArrays_arr spec0 launch0.win.arr_inj c _ _ 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  rw [tail_after, hP, h1, h2, h4]

end Cert.KernelIdeal.Hand

end
-- ==== Proof.LibGather.lean ====
/-
  The host's row gather `x[idx]` read at an index.
-/
import proofs.«406994_j64390149702456_2_alg».proof.Proof.Spec
import Idealize.ShloMosaic.PureOps

noncomputable section

namespace Cert.Gcn

open Idealize.ShloMosaic Idealize.ShloMosaic.ValueIdx

/-- The dimension numbers of a gather of whole rows of a `[50000, 64]` table at `[800000, 1]` start indices. -/
abbrev gDims (wf : GatherDims.WF SN SE1 SE [1] [0] [] [0] [] 1 ![1, 64]) : GatherDims SN SE1 SE where
  offsetDims := [1]
  collapsedSliceDims := [0]
  operandBatchingDims := []
  startIndicesBatchingDims := []
  startIndexMap := [0]
  indexVectorDim := 1
  sliceSizes := ![1, 64]
  wf := wf

/-- Element `(e, k)` of the gather is the table at row `rowOf idx e` (edge `e`'s word, signed, clamped), column `k`. -/
theorem gather_apply {α : Type} (wf : GatherDims.WF SN SE1 SE [1] [0] [] [0] [] 1 ![1, 64])
    (x : SN.Idx → α) (idx : IVec SE1 32) (e : Fin 800000) (k : Fin 64) :
    Host.gather (gDims wf) x idx (ix2 e k) = x (ix2 (rowOf idx e) k) := by
  unfold Host.gather
  congr 1
  funext a
  refine Fin.ext ?_
  match a with
  | ⟨0, _⟩ =>
    -- table axis 0 is collapsed and named by the start index map: the coordinate is the clamped start alone
    show (gDims wf).start (ix2 e k) idx 0 + (gDims wf).batchCoord (ix2 e k) 0 + (gDims wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims wf).startIndexMap from List.mem_singleton.mpr rfl)]
    -- the start word of result index (e, k) sits at (e, 0) in the column of indices
    have hsi : (gDims wf).siIdx (ix2 e k) ⟨List.idxOf (0 : Fin 2) (gDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- table axis 1 is an offset axis outside the start index map: start 0, coordinate the result's column k
    show (gDims wf).start (ix2 e k) idx 1 + (gDims wf).batchCoord (ix2 e k) 1 + (gDims wf).offCoord (ix2 e k) 1 = k.val
    rw [GatherDims.batchCoord_eq_zero _ _ _ List.not_mem_nil]
    have hst : (gDims wf).start (ix2 e k) idx 1 = 0 := by
      unfold GatherDims.start
      rw [dif_neg (show ¬ (1 : Fin 2) ∈ (gDims wf).startIndexMap from
        (show ¬ (1 : Fin 2) ∈ ([0] : List (Fin 2)) by decide))]
    rw [hst]
    have hk : (1 : Fin 2) ∈ (gDims wf).sKept := by
      rw [GatherDims.mem_sKept]
      exact ⟨(show ¬ (1 : Fin 2) ∈ ([0] : List (Fin 2)) by decide), List.not_mem_nil⟩
    unfold GatherDims.offCoord
    rw [dif_pos hk]
    simp only [Nat.zero_add, Nat.add_zero]
    rfl

end Cert.Gcn

end
-- ==== Proof.LibMask.lean ====
/-
  A source word in `[-50000, 50000)` normalises into the table: the in-range test both bounds of which the
  kernel's `take` evaluates is true.
-/
import proofs.«406994_j64390149702456_2_alg».proof.Proof.Spec

noncomputable section

namespace Cert.Gcn

open Idealize.ShloMosaic Idealize.ShloMosaic.ValueIdx

/-- For `-50000 ≤ x < 50000` the normalised word is in `[0, 49999]`: the conjunction of the two signed tests is one. -/
theorem normWord_inRange (x : BitVec 32) (h1 : -50000 ≤ x.toInt) (h2 : x.toInt < 50000) :
    IntOp.andi (IntOp.cmpi .sge (normWord x) 0#32) (IntOp.cmpi .sle (normWord x) 49999#32) = 1#1 := by
  -- the normalised word, read signed, lies in [0, 49999]
  have hb : 0 ≤ (normWord x).toInt ∧ (normWord x).toInt ≤ 49999 := by
    unfold normWord Scalar.select IntOp.cmpi IntOp.addi
    by_cases hx : x.toInt < 0
    · -- a negative word: x + 50000 does not wrap, since -50000 ≤ x < 0
      have hs : x.slt 0#32 = true := by
        rw [BitVec.slt_iff_toInt_lt]; simpa using hx
      simp only [hs, BitVec.ofBool_true, if_true]
      have : (x + 50000#32).toInt = x.toInt + 50000 := by
        rw [BitVec.toInt_add]
        have h5 : (50000#32).toInt = 50000 := by decide
        rw [h5]
        apply Int.bmod_eq_of_le <;> omega
      omega
    · -- a non-negative word is kept: 0 ≤ x < 50000
      have hs : x.slt 0#32 = false := by
        rw [Bool.eq_false_iff, Ne, BitVec.slt_iff_toInt_lt]; simpa using hx
      simp only [hs, BitVec.ofBool_false]
      rw [if_neg (by decide : ¬ ((0 : BitVec 1) = 1))]
      omega
  obtain ⟨ha, hb⟩ := hb
  -- both signed tests hold, so each bit is 1 and so is their conjunction
  have h0 : (0#32).sle (normWord x) = true := by
    rw [BitVec.sle_iff_toInt_le]; simpa using ha
  have h9 : (normWord x).sle 49999#32 = true := by
    rw [BitVec.sle_iff_toInt_le]
    have : (49999#32).toInt = 49999 := by decide
    rw [this]; exact hb
  unfold IntOp.andi IntOp.cmpi
  simp only [h0, h9]
  decide

end Cert.Gcn

end
-- ==== Proof.KTake.lean ====
/-
  The kernel's take of the transformed rows at the source words.  Under the precondition every source word
  normalises into the table, so the take's in-range test is one for every edge and the take is the plain
  gather: row `e` is the table row the normalised word selects.
-/
import proofs.«406994_j64390149702456_2_alg».proof.Proof.KTail
import proofs.«406994_j64390149702456_2_alg».proof.Proof.Spec
import proofs.«406994_j64390149702456_2_alg».proof.Proof.LibGather
import proofs.«406994_j64390149702456_2_alg».proof.Proof.LibMask
import Idealize.ShloMosaic.Lib.ReduceAll

noncomputable section

namespace Cert.KernelIdeal.Hand

open Cert.KernelIdeal Cert.KernelIdeal.Gen Idealize.ShloMosaic Idealize.ShloMosaic.ValueIdx

/-- A reduce by `and` from the initial value one, over an array that is one everywhere, is one everywhere. -/
theorem takeK_reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  -- a left fold of `and` that starts at one and meets only ones stays one
  induction l with
  | nil => rfl
  | cons a l ih =>
    rw [List.foldl_cons, hx a]
    have h11 : IntOp.andi 1#1 1#1 = 1#1 := by decide
    rw [h11]
    exact ih

/-- The program's gather, over any table and any index column: row `e` is the table row the word selects. -/
theorem takeK_gather_apply (T : S50000x64.Idx → EReal) (idx : IVec S800000x1 32) (e : Fin 800000) (k : Fin 64) :
    Host.gather gather_S50000x64_S800000x1_S800000x64_1_0_n_n_0_1_164 T idx (ix2 e k)
      = T (ix2 (Cert.Gcn.rowOf idx e) k) :=
  Cert.Gcn.gather_apply gather_S50000x64_S800000x1_S800000x64_1_0_n_n_0_1_164_wf T idx e k

/-- The take's index column is the specification's column of normalised source words. -/
theorem nidxK_eq (x1 : IVec S800000 32) : nidxK x1 = Cert.Gcn.normIdx x1 := by
  funext i
  unfold nidxK
  -- the column's entry at row r is the flat array's entry r
  refine (broadcastInDim_apply _ bcast_S800000_S800000x1_0 _ i (ix1 ⟨(i 0).val, idx2_lt0 i⟩) (fun a => match a with
    | ⟨0, _⟩ => by show (i 0).val = if (800000 : Nat) = 1 then 0 else (i 0).val; rw [if_neg (by decide)])).trans ?_
  -- there the select, the comparison with zero and the addition of 50000 are the normalisation of the word
  rfl

/-- The destination column the scatter reads is the specification's. -/
theorem didxK_eq (x2 : IVec S800000 32) :
    broadcastInDim S800000x1 ![0] bcast_S800000_S800000x1_0 x2 = Cert.Gcn.colIdx x2 := by
  funext i
  -- the column's entry at row r is the flat array's entry r
  refine (broadcastInDim_apply _ bcast_S800000_S800000x1_0 x2 i (ix1 ⟨(i 0).val, idx2_lt0 i⟩) (fun a => match a with
    | ⟨0, _⟩ => by show (i 0).val = if (800000 : Nat) = 1 then 0 else (i 0).val; rw [if_neg (by decide)])).trans ?_
  rfl

/-- With every source word in `[-50000, 50000)` the in-range test holds for every edge. -/
theorem maskK_eq_one (x1 : IVec S800000 32)
    (hsrc : ∀ e : Fin 800000, -50000 ≤ (x1 (ix1 e)).toInt ∧ (x1 (ix1 e)).toInt < 50000) (e : Fin 800000) :
    maskK x1 (ix1 e) = 1#1 := by
  unfold maskK
  -- the initial value is one, and every element reduced is the conjunction of the two bound tests of a normalised word
  refine takeK_reduce_andi_one _ _ reducesTo_S800000x1_S800000_d1 h_S_ (ix1 e) rfl (fun i => ?_)
  show IntOp.andi (IntOp.cmpi .sge (nidxK x1 i) 0#32) (IntOp.cmpi .sle (nidxK x1 i) 49999#32) = 1#1
  rw [nidxK_eq]
  exact Cert.Gcn.normWord_inRange _ (hsrc ⟨(i 0).val, idx2_lt0 i⟩).1 (hsrc ⟨(i 0).val, idx2_lt0 i⟩).2

/-- So the take reads, for edge `e` and column `j`, the table at the row the normalised word selects. -/
theorem takeK_apply (T : S50000x64.Idx → EReal) (x1 : IVec S800000 32)
    (hsrc : ∀ e : Fin 800000, -50000 ≤ (x1 (ix1 e)).toInt ∧ (x1 (ix1 e)).toInt < 50000) (e : Fin 800000) (j : Fin 64) :
    takeK T x1 (ix2 e j) = T (ix2 (Cert.Gcn.rowOf (Cert.Gcn.normIdx x1) e) j) := by
  unfold takeK
  rw [select_apply]
  -- the test bit of edge e, spread along its row, is one
  have hm : broadcastInDim S800000x64 ![0] bcast_S800000_S800000x64_0 (maskK x1) (ix2 e j) = 1#1 := by
    refine (broadcastInDim_apply _ bcast_S800000_S800000x64_0 (maskK x1) (ix2 e j) (ix1 e) (fun a => match a with
      | ⟨0, _⟩ => by show e.val = if (800000 : Nat) = 1 then 0 else e.val; rw [if_neg (by decide)])).trans ?_
    exact maskK_eq_one x1 hsrc e
  -- so the select keeps the gathered row
  rw [hm, select_one, takeK_gather_apply, nidxK_eq]

end Cert.KernelIdeal.Hand

end
-- ==== Proof.Algebra.lean ====
/-
  The one algebraic law of the claim: on real entries the linear map commutes with the aggregation; and
  the block-diagonal packing of the weight is the plain map on each half.
-/
import proofs.«406994_j64390149702456_2_alg».proof.Proof.Spec
import Mathlib.Algebra.BigOperators.Ring.Finset
import Mathlib.Algebra.BigOperators.Fin

noncomputable section

namespace Cert.Gcn

open Idealize.ShloMosaic Idealize.ShloMosaic.ValueIdx

/-- The coercion of a finite real sum is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- On real features and weights, transform-then-aggregate equals aggregate-then-transform. -/
theorem aggLin_eq_linAgg (feat : SN.Idx → EReal) (W : SW.Idx → EReal) (b : SB.Idx → EReal) (nidx didx : IVec SE1 32)
    (hf : ∀ i, ∃ r : ℝ, feat i = (r : EReal)) (hW : ∀ i, ∃ r : ℝ, W i = (r : EReal)) (v : Fin 50000) (j : Fin 64) :
    aggLin feat W b nidx didx v j = linAgg feat W b nidx didx v j := by
  -- real witnesses for every entry of the features and of the weight
  choose f hf using hf
  choose w hw using hW
  unfold aggLin linAgg linAt
  refine congrArg (fun t : EReal => t + b (ix1 j)) ?_
  simp only [zero_add, hf, hw, ← EReal.coe_mul, ← coe_sum]
  -- now both sides are coercions of real sums; exchange the two sums and pull the weight out
  refine congrArg (fun t : ℝ => (t : EReal)) ?_
  rw [Finset.sum_comm]
  refine Finset.sum_congr rfl fun k _ => ?_
  rw [Finset.sum_mul]

/-- A sum over 128 packed columns against a block-diagonal weight keeps only the half `h`:
    `Σ_{k<128} x k · (if k / 64 = h then w (k % 64) else 0) = Σ_{k'<64} x (64 h + k') · w k'`. -/
theorem blockdiag_sum (x : Fin 128 → EReal) (w : Fin 64 → EReal) (h : Fin 2) :
    (∑ k : Fin 128, x k * (if k.val / 64 = h.val then w ⟨k.val % 64, Nat.mod_lt _ (by decide)⟩ else 0))
      = ∑ k' : Fin 64, x ⟨64 * h.val + k'.val, by have := h.isLt; have := k'.isLt; omega⟩ * w k' := by
  -- the low half of the columns has quotient 0, the high half quotient 1; both have remainder the offset
  have hc : ∀ i : Fin 64, (Fin.castAdd 64 i).val / 64 = 0 := fun i => by
    have := i.isLt; rw [Fin.coe_castAdd]; omega
  have hn : ∀ i : Fin 64, (Fin.natAdd 64 i).val / 64 = 1 := fun i => by
    have := i.isLt; rw [Fin.coe_natAdd]; omega
  have hcm : ∀ i : Fin 64, (⟨(Fin.castAdd 64 i).val % 64, Nat.mod_lt _ (by decide)⟩ : Fin 64) = i := fun i => by
    have := i.isLt; apply Fin.ext; show (Fin.castAdd 64 i).val % 64 = i.val; rw [Fin.coe_castAdd]; omega
  have hnm : ∀ i : Fin 64, (⟨(Fin.natAdd 64 i).val % 64, Nat.mod_lt _ (by decide)⟩ : Fin 64) = i := fun i => by
    have := i.isLt; apply Fin.ext; show (Fin.natAdd 64 i).val % 64 = i.val; rw [Fin.coe_natAdd]; omega
  -- split the 128 columns into the two halves
  have key := Fin.sum_univ_add (M := EReal) (a := 64) (b := 64)
    (fun k : Fin (64 + 64) => x k * (if k.val / 64 = h.val then w ⟨k.val % 64, Nat.mod_lt _ (by decide)⟩ else 0))
  refine key.trans ?_
  beta_reduce
  have h01 : h.val = 0 ∨ h.val = 1 := by have := h.isLt; omega
  rcases h01 with h0 | h1
  · -- h = 0: the high half vanishes term by term
    have z : ∀ i : Fin 64, x (Fin.natAdd 64 i) * (if (Fin.natAdd 64 i).val / 64 = h.val
        then w ⟨(Fin.natAdd 64 i).val % 64, Nat.mod_lt _ (by decide)⟩ else 0) = 0 := fun i => by
      rw [if_neg (by rw [hn, h0]; decide), mul_zero]
    rw [Finset.sum_congr rfl (fun i _ => z i), Finset.sum_const_zero, add_zero]
    refine Finset.sum_congr rfl fun i _ => ?_
    rw [if_pos (by rw [hc, h0]), hcm]
    refine congrArg (fun t => t * w i) (congrArg x (Fin.ext ?_))
    show (Fin.castAdd 64 i).val = 64 * h.val + i.val
    rw [Fin.coe_castAdd]; omega
  · -- h = 1: the low half vanishes term by term
    have z : ∀ i : Fin 64, x (Fin.castAdd 64 i) * (if (Fin.castAdd 64 i).val / 64 = h.val
        then w ⟨(Fin.castAdd 64 i).val % 64, Nat.mod_lt _ (by decide)⟩ else 0) = 0 := fun i => by
      rw [if_neg (by rw [hc, h1]; decide), mul_zero]
    rw [Finset.sum_congr rfl (fun i _ => z i), Finset.sum_const_zero, zero_add]
    refine Finset.sum_congr rfl fun i _ => ?_
    rw [if_pos (by rw [hn, h1]), hnm]
    refine congrArg (fun t => t * w i) (congrArg x (Fin.ext ?_))
    show (Fin.natAdd 64 i).val = 64 * h.val + i.val
    rw [Fin.coe_natAdd]; omega

end Cert.Gcn

end
-- ==== Proof.KLin.lean ====
/-
  The region's output, re-read as node rows, is the linear map applied row by row: node `n` sits in packed row
  `n / 2`, half `n % 2`; the block-diagonal weight keeps exactly that half of the packed row, so entry `(n, j)` is
  `Σ_k feature(n, k) · W(j, k)`.
-/
import proofs.«406994_j64390149702456_2_alg».proof.Proof.KTail
import proofs.«406994_j64390149702456_2_alg».proof.Proof.KPre
import proofs.«406994_j64390149702456_2_alg».proof.Proof.Spec
import proofs.«406994_j64390149702456_2_alg».proof.Proof.Algebra

noncomputable section

namespace Cert.KernelIdeal.Hand

open Cert.KernelIdeal Cert.KernelIdeal.Gen Idealize.ShloMosaic Idealize.ShloMosaic.ValueIdx

/-- The re-reading `[25000, 128] → [50000, 64]` at `(n, j)`: packed row `n / 2`, packed column `64 (n % 2) + j`. -/
theorem unpack_apply (Pm : S25000x128.Idx → EReal) (n : Fin 50000) (j : Fin 64) :
    shapeCast S50000x64 Pm shapeCasts_S25000x128_S50000x64 (ix2 n j)
      = Pm (ix2 (⟨n.val / 2, by have := n.isLt; omega⟩ : Fin 25000)
          (⟨64 * (n.val % 2) + j.val, by have := j.isLt; omega⟩ : Fin 128)) := by
  -- (n, j) in [50000, 64] and (n / 2, 64 (n % 2) + j) in [25000, 128] have the same row-major position
  refine shapeCast_apply Pm shapeCasts_S25000x128_S50000x64 (ix2 n j) _ ?_
  rw [Shape.rowMajor_val_two, Shape.rowMajor_val_two]
  show (n.val / 2) * 128 + (64 * (n.val % 2) + j.val) = n.val * 64 + j.val
  omega

/-- The transformed table: the packed product re-read as node rows is the linear map of each node's feature row. -/
theorem lin_apply (x0 : S50000x64.Idx → EReal) (x3 : S64x64.Idx → EReal) (n : Fin 50000) (j : Fin 64) :
    shapeCast S50000x64 (mm (packX x0) (packW x3)) shapeCasts_S25000x128_S50000x64 (ix2 n j)
      = Cert.Gcn.linAt x0 x3 n j := by
  rw [unpack_apply]
  unfold mm Cert.Gcn.linAt
  have hn := n.isLt
  have hj := j.isLt
  -- the packed column 64 (n % 2) + j lies in half n % 2 at offset j
  have hq : (64 * (n.val % 2) + j.val) / 64 = n.val % 2 := by omega
  have hjF : (⟨(64 * (n.val % 2) + j.val) % 64, Nat.mod_lt _ (by decide)⟩ : Fin 64) = j := Fin.ext (by
    show (64 * (n.val % 2) + j.val) % 64 = j.val
    omega)
  -- summand by summand the packed product is a row of the features against a block-diagonal weight;
  -- the block-diagonal sum keeps half n % 2, whose 64 columns are node n's features
  refine (Finset.sum_congr rfl ?_).trans
    ((Cert.Gcn.blockdiag_sum
        (fun k : Fin 128 => x0 (ix2 (⟨2 * (n.val / 2) + k.val / 64, by have := k.isLt; omega⟩ : Fin 50000)
          (⟨k.val % 64, Nat.mod_lt _ (by decide)⟩ : Fin 64)))
        (fun k' : Fin 64 => x3 (ix2 j k')) (⟨n.val % 2, by omega⟩ : Fin 2)).trans (Finset.sum_congr rfl ?_))
  · intro k _
    rw [packX_apply, packW_apply]
    show x0 (ix2 (⟨2 * (n.val / 2) + k.val / 64, _⟩ : Fin 50000) (⟨k.val % 64, _⟩ : Fin 64))
        * (if k.val / 64 = (64 * (n.val % 2) + j.val) / 64
            then x3 (ix2 (⟨(64 * (n.val % 2) + j.val) % 64, _⟩ : Fin 64) (⟨k.val % 64, _⟩ : Fin 64)) else 0)
      = x0 (ix2 (⟨2 * (n.val / 2) + k.val / 64, _⟩ : Fin 50000) (⟨k.val % 64, _⟩ : Fin 64))
        * (if k.val / 64 = n.val % 2 then x3 (ix2 j (⟨k.val % 64, _⟩ : Fin 64)) else 0)
    rw [hq, hjF]
  · intro k' _
    have hk' := k'.isLt
    -- 2 (n / 2) + (64 (n % 2) + k') / 64 = n and (64 (n % 2) + k') % 64 = k'
    refine congrArg (fun t => t * x3 (ix2 j k')) (congrArg x0 (congrArg₂ ix2 (Fin.ext ?_) (Fin.ext ?_)))
    · show 2 * (n.val / 2) + (64 * (n.val % 2) + k'.val) / 64 = n.val
      omega
    · show (64 * (n.val % 2) + k'.val) % 64 = k'.val
      omega

end Cert.KernelIdeal.Hand

end
-- ==== Proof.LibScatter.lean ====
/-
  The host's accumulating row scatter `zeros.at[idx].add(upd)` read at an index, at the ideal instance.
-/
import proofs.«406994_j64390149702456_2_alg».proof.Proof.Spec
import Idealize.ShloMosaic.PureOps

noncomputable section

namespace Cert.Gcn

open Idealize.ShloMosaic Idealize.ShloMosaic.ValueIdx

/-- The dimension numbers of a scatter of whole rows `[800000, 64]` into a `[50000, 64]` table at `[800000, 1]` indices. -/
abbrev sDims (wf : ScatterDims.WF SN SE1 SE [1] [0] [0] 1) : ScatterDims SN SE1 SE where
  updateWindowDims := [1]
  insertedWindowDims := [0]
  scatterDimsToOperandDims := [0]
  indexVectorDim := 1
  wf := wf

/-- On the table's row axis the window starts at the signed index word of the update's row. -/
theorem sDims_start0 (wf : ScatterDims.WF SN SE1 SE [1] [0] [0] 1) (idx : IVec SE1 32)
    (e : Fin 800000) (c : Fin 64) :
    (sDims wf).start (ix2 e c) idx 0 = (idx (ix2 e (0 : Fin 1))).toInt := by
  unfold ScatterDims.start
  rw [dif_pos (show (0 : Fin 2) ∈ (sDims wf).scatterDimsToOperandDims from List.mem_singleton.mpr rfl)]
  have hsi : (sDims wf).siIdx (ix2 e c) ⟨List.idxOf (0 : Fin 2) (sDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis, which the index vector does not name, the window starts at zero. -/
theorem sDims_start1 (wf : ScatterDims.WF SN SE1 SE [1] [0] [0] 1) (idx : IVec SE1 32)
    (e : Fin 800000) (c : Fin 64) :
    (sDims wf).start (ix2 e c) idx 1 = 0 := by
  unfold ScatterDims.start
  have h : (1 : Fin 2) ∉ ([0] : List (Fin 2)) := by decide
  rw [dif_neg (show (1 : Fin 2) ∉ (sDims wf).scatterDimsToOperandDims from h)]

/-- The row axis is an inserted window axis: its window coordinate is zero. -/
theorem sDims_window0 (wf : ScatterDims.WF SN SE1 SE [1] [0] [0] 1)
    (e : Fin 800000) (c : Fin 64) :
    (sDims wf).window (ix2 e c) 0 = 0 := by
  unfold ScatterDims.window
  have h : (0 : Fin 2) ∉ SN.kept [0] := by decide
  rw [dif_neg (show (0 : Fin 2) ∉ (sDims wf).sKept from h)]

/-- The feature axis is the one window axis: its window coordinate is the update's feature coordinate. -/
theorem sDims_window1 (wf : ScatterDims.WF SN SE1 SE [1] [0] [0] 1)
    (e : Fin 800000) (c : Fin 64) :
    (sDims wf).window (ix2 e c) 1 = c.val := by
  unfold ScatterDims.window
  have h : (1 : Fin 2) ∈ SN.kept [0] := by decide
  rw [dif_pos (show (1 : Fin 2) ∈ (sDims wf).sKept from h)]
  rfl

/-- An update index lands on an operand index exactly when, on every axis, the window's start plus the window
    coordinate is that index's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hall
      have h' := Option.some.inj h
      have ha := congrArg (fun f => (f a).val) h'
      simp only at ha
      have := hall a
      omega
    · exact absurd h (by simp)
  · intro h
    have hall : ∀ a, 0 ≤ d.start j idx a + d.window j a ∧ d.start j idx a + d.window j a < s.size a := by
      intro a
      have := h a
      have := (i a).isLt
      omega
    rw [dif_pos hall]
    congr 1
    funext a
    apply Fin.ext
    show (d.start j idx a + d.window j a).toNat = (i a).val
    have := h a
    omega

/-- Update element `(e, c')` lands on table element `(v, c)` exactly when edge `e`'s index word, read signed, is `v`
    and the feature coordinates agree. -/
theorem sDims_lands (wf : ScatterDims.WF SN SE1 SE [1] [0] [0] 1) (idx : IVec SE1 32)
    (e : Fin 800000) (c' : Fin 64) (v : Fin 50000) (c : Fin 64) :
    (sDims wf).resultIdx? (ix2 e c') idx = some (ix2 v c) ↔
      (idx (ix2 e (0 : Fin 1))).toInt = (v.val : Int) ∧ c' = c := by
  rw [resultIdx?_eq_some_iff]
  constructor
  · intro h
    have h0 := h 0
    have h1 := h 1
    rw [sDims_start0, sDims_window0] at h0
    rw [sDims_start1, sDims_window1] at h1
    change _ = (v.val : Int) at h0
    change _ = (c.val : Int) at h1
    refine ⟨by omega, Fin.ext (by omega)⟩
  · rintro ⟨h0, rfl⟩
    refine Fin.forall_fin_two.2 ⟨?_, ?_⟩
    · rw [sDims_start0, sDims_window0, h0]; simp
    · rw [sDims_start1, sDims_window1]; simp

/-- Element `(v, c)` of the accumulating scatter: the operand's element plus the sum, over the edges landing on node `v`,
    of the update's element `(e, c)`. -/
theorem scatterAdd_apply (wf : ScatterDims.WF SN SE1 SE [1] [0] [0] 1)
    (x : SN.Idx → EReal) (idx : IVec SE1 32) (upd : SE.Idx → EReal) (v : Fin 50000) (c : Fin 64) :
    Ideal.hostScatterAdd (sDims wf) x idx upd (ix2 v c) = x (ix2 v c) + ∑ e ∈ landsOn idx v, upd (ix2 e c) := by
  unfold Ideal.hostScatterAdd
  refine congrArg (fun t => x (ix2 v c) + t) ?_
  -- the sum over the update's elements is a double sum over edges and features; for each edge the inner sum
  -- keeps the one feature `c`, and only when the edge lands on `v`
  rw [Finset.sum_filter, sum_idx2]
  unfold landsOn
  rw [Finset.sum_filter]
  refine Finset.sum_congr rfl fun e _ => ?_
  simp only [sDims_lands]
  by_cases h : (idx (ix2 e (0 : Fin 1))).toInt = (v.val : Int)
  · simp [h]
  · simp [h]

end Cert.Gcn

end
-- ==== Proof.KValue.lean ====
/-
  The kernel's tail applied to the region's product, entry by entry: the destination row `v` receives, for every edge
  landing on it, the transformed feature row of the edge's source node; adding the bias gives the kernel-order closed
  form, which on real features and weights is the reference-order one.
-/
import proofs.«406994_j64390149702456_2_alg».proof.Proof.KTail
import proofs.«406994_j64390149702456_2_alg».proof.Proof.KTake
import proofs.«406994_j64390149702456_2_alg».proof.Proof.KLin
import proofs.«406994_j64390149702456_2_alg».proof.Proof.Spec
import proofs.«406994_j64390149702456_2_alg».proof.Proof.LibScatter
import proofs.«406994_j64390149702456_2_alg».proof.Proof.Algebra
import Idealize.ShloMosaic.PureOps.Ideal.Laws

noncomputable section

namespace Cert.KernelIdeal.Hand

open Cert.KernelIdeal Cert.KernelIdeal.Gen Idealize.ShloMosaic Idealize.ShloMosaic.ValueIdx

/-- The accumulating scatter at the program's dimension numbers, over any operands, read at `(v, c)`: the operand's
    entry plus the sum over the edges landing on node `v` of the update's entry `(e, c)`. -/
theorem scatterK_apply (z : FVec Ideal S50000x64 .f32) (idx : IVec S800000x1 32) (upd : FVec Ideal S800000x64 .f32)
    (v : Fin 50000) (c : Fin 64) :
    Host.scatterAdd (F := Ideal) scatter_S50000x64_S800000x1_S800000x64_1_0_0_1 z idx upd (ix2 v c)
      = z (ix2 v c) + ∑ e ∈ Cert.Gcn.landsOn idx v, upd (ix2 e c) :=
  Cert.Gcn.scatterAdd_apply scatter_S50000x64_S800000x1_S800000x64_1_0_0_1_wf z idx upd v c

/-- The tail at an index, over any product array: zero, plus the taken rows of the edges landing on `v`, plus the bias. -/
theorem tailK_apply (Pm : S25000x128.Idx → EReal) (x1 x2 : IVec S800000 32) (x4 : S64.Idx → EReal) (v : Fin 50000) (j : Fin 64) :
    tailK Pm x1 x2 x4 (ix2 v j)
      = (broadcastInDim S50000x64 ![] bcast_S_S50000x64 (constant (F := Ideal) S_ .f32 0x00000000#32) (ix2 v j)
          + ∑ e ∈ Cert.Gcn.landsOn (broadcastInDim S800000x1 ![0] bcast_S800000_S800000x1_0 x2) v,
              takeK (shapeCast S50000x64 Pm shapeCasts_S25000x128_S50000x64) x1 (ix2 e j))
        + broadcastInDim S50000x64 ![0, 1] bcast_S1x64_S50000x64_0_1 (broadcastInDim S1x64 ![1] bcast_S64_S1x64_1 x4) (ix2 v j) := by
  unfold tailK
  rw [addf_apply, scatterK_apply]

/-- The zero array the scatter starts from. -/
theorem zerosK_apply (i : S50000x64.Idx) :
    broadcastInDim S50000x64 ![] bcast_S_S50000x64 (constant (F := Ideal) S_ .f32 0x00000000#32) i = 0 := by
  refine (broadcastInDim_apply _ bcast_S_S50000x64 _ i (fun a => a.elim0) (fun a => a.elim0)).trans ?_
  exact Ideal.ofBits_zero_f32

/-- The bias broadcast over the nodes, read at `(v, j)`. -/
theorem biasK_apply (x4 : S64.Idx → EReal) (v : Fin 50000) (j : Fin 64) :
    broadcastInDim S50000x64 ![0, 1] bcast_S1x64_S50000x64_0_1 (broadcastInDim S1x64 ![1] bcast_S64_S1x64_1 x4) (ix2 v j)
      = x4 (ix1 j) := by
  refine (broadcastInDim_apply _ bcast_S1x64_S50000x64_0_1 _ (ix2 v j) (ix2 (0 : Fin 1) j) (fun a => match a with
    | ⟨0, _⟩ => by show 0 = if (1 : Nat) = 1 then 0 else v.val; rw [if_pos rfl]
    | ⟨1, _⟩ => by show j.val = if (64 : Nat) = 1 then 0 else j.val; rw [if_neg (by decide)])).trans ?_
  exact broadcastInDim_apply _ bcast_S64_S1x64_1 x4 (ix2 (0 : Fin 1) j) (ix1 j) (fun a => match a with
    | ⟨0, _⟩ => by show j.val = if (64 : Nat) = 1 then 0 else j.val; rw [if_neg (by decide)])

/-- THE KERNEL'S VALUE: the tail of the product of the packed inputs is the specification's result array. -/
theorem tailK_value (x0 : S50000x64.Idx → EReal) (x1 x2 : IVec S800000 32) (x3 : S64x64.Idx → EReal) (x4 : S64.Idx → EReal)
    (hf : ∀ i, ∃ r : ℝ, x0 i = (r : EReal)) (hW : ∀ i, ∃ r : ℝ, x3 i = (r : EReal))
    (hsrc : ∀ e : Fin 800000, -50000 ≤ (x1 (ix1 e)).toInt ∧ (x1 (ix1 e)).toInt < 50000) :
    tailK (mm (packX x0) (packW x3)) x1 x2 x4 = Cert.Gcn.result x0 x1 x2 x3 x4 := by
  funext i
  obtain ⟨v, j, rfl⟩ : ∃ (v : Fin 50000) (j : Fin 64), i = ix2 v j := ⟨i 0, i 1, eq_ix2 i⟩
  rw [Cert.Gcn.result_apply, ← Cert.Gcn.aggLin_eq_linAgg x0 x3 x4 _ _ hf hW v j, tailK_apply]
  unfold Cert.Gcn.aggLin
  rw [zerosK_apply]
  rw [biasK_apply]
  rw [didxK_eq]
  refine congrArg (fun a : EReal => (0 + a) + x4 (ix1 j)) ?_
  refine Finset.sum_congr rfl fun e _ => ?_
  rw [takeK_apply _ _ hsrc, lin_apply]

end Cert.KernelIdeal.Hand

end
-- ==== Proof.Pre.lean ====
/-
  What the precondition says: every feature and every weight is a real number, and every source word is in
  `[-50000, 50000)` (the range in which indexing a 50000-row table is defined).
-/
import proofs.«406994_j64390149702456_2_alg».proof.Pre_finite_inputs
import proofs.«406994_j64390149702456_2_alg».proof.Proof.Gen.Pre_finite_inputs
import proofs.«406994_j64390149702456_2_alg».proof.Proof.Spec
import Idealize.ShloMosaic.Lib.ReduceAll

noncomputable section

namespace Cert.Gcn

open Idealize.ShloMosaic Idealize.ShloMosaic.ValueIdx

/-- The word `0x7F800000` (sign 0, exponent all ones, fraction 0) denotes `+∞`. -/
theorem pre_top_word : Ideal.ofBits .f32 0x7F800000#32 = (⊤ : EReal) := by
  simp [Ideal.ofBits, Ideal.ieee]

/-- `|x| < +∞` for an extended real `x` (with `|x| = max x (-x)`) leaves only the real values:
    `|+∞| = |-∞| = +∞` is not below `+∞`. -/
theorem pre_real_of_abs_lt (x : EReal)
    (h : Ideal.cmp .olt (max x (-x)) (Ideal.ofBits .f32 0x7F800000#32) = 1#1) : ∃ r : ℝ, x = (r : EReal) := by
  rw [pre_top_word] at h
  unfold Ideal.cmp at h
  induction x using EReal.rec with
  | bot => simp at h
  | coe r => exact ⟨r, rfl⟩
  | top => simp at h

/-- The two signed comparisons of a word, against `-50000` (the word `4294917296`) from below and `50000` from
    above, read as inequalities of its signed value. -/
theorem pre_range_of_word (w : BitVec 32) (hge : IntOp.cmpi .sge w 4294917296#32 = 1#1)
    (hlt : IntOp.cmpi .slt w 50000#32 = 1#1) : -50000 ≤ w.toInt ∧ w.toInt < 50000 := by
  unfold IntOp.cmpi at hge hlt
  have e1 : (4294917296#32 : BitVec 32).toInt = -50000 := by decide
  have e2 : (50000#32 : BitVec 32).toInt = 50000 := by decide
  simp only [BitVec.slt, BitVec.sle, e1, e2] at hge hlt
  constructor
  · by_contra hc
    rw [decide_eq_false hc] at hge
    exact absurd hge (by decide)
  · by_contra hc
    rw [decide_eq_false hc] at hlt
    exact absurd hlt (by decide)

/-- The printed precondition, all ones, gives: real features, real weights, source words in range. -/
theorem pre_decode [Cert.Pre_finite_inputs.Facts] (x0 : SN.Idx → EReal) (x1 x2 : IVec SEd 32) (x3 : SW.Idx → EReal)
    (x4 : SB.Idx → EReal)
    (h : Cert.Pre_finite_inputs.fn (F := Ideal) x0 x1 x2 x3 x4 = fun _ => 1#1) :
    (∀ i, ∃ r : ℝ, x0 i = (r : EReal)) ∧ (∀ i, ∃ r : ℝ, x3 i = (r : EReal))
      ∧ (∀ e : Fin 800000, -50000 ≤ (x1 (ix1 e)).toInt ∧ (x1 (ix1 e)).toInt < 50000) := by
  -- the one element of the rank-0 result is a conjunction of five bits, each a conjunction over a whole array
  have e := congrFun h ValueIdx.ix0
  dsimp only [Cert.Pre_finite_inputs.fn, Cert.Pre_finite_inputs.fn_part1] at e
  simp only [andi, IntOp.andi_eq_one] at e
  obtain ⟨⟨⟨⟨hf, hw⟩, -⟩, hge⟩, hlt⟩ := e
  -- a rank-0 shape has one index, so each conjunction over an array says its bit is 1 at every index
  haveI : Subsingleton Cert.Pre_finite_inputs.S_.Idx := ⟨fun a b => funext fun d => d.elim0⟩
  have Hf := Host.reduce_andi_all _ _ _ _ _ hf
  have Hw := Host.reduce_andi_all _ _ _ _ _ hw
  have Hge := Host.reduce_andi_all _ _ _ _ _ hge
  have Hlt := Host.reduce_andi_all _ _ _ _ _ hlt
  -- at an index the bit compares that element with the broadcast scalar: `|x| < +∞`, `-50000 ≤ s`, `s < 50000`
  exact ⟨fun i => pre_real_of_abs_lt _ (Hf i), fun i => pre_real_of_abs_lt _ (Hw i),
    fun e => pre_range_of_word _ (Hge (ix1 e)) (Hlt (ix1 e))⟩

end Cert.Gcn

end
-- ==== Proof.KRun.lean ====
/-
  The kernel's run, read: every weakly fair execution ends with the result buffer at the specification's result
  array of the launch contents of the five arguments, and the arguments unchanged.
-/
import proofs.«406994_j64390149702456_2_alg».proof.Defs
import proofs.«406994_j64390149702456_2_alg».proof.Proof.Gen.KernelIdeal.Frame
import proofs.«406994_j64390149702456_2_alg».proof.Proof.Gen.Pre_finite_inputs
import proofs.«406994_j64390149702456_2_alg».proof.Proof.KRegion
import proofs.«406994_j64390149702456_2_alg».proof.Proof.KPre
import proofs.«406994_j64390149702456_2_alg».proof.Proof.KTail
import proofs.«406994_j64390149702456_2_alg».proof.Proof.KValue
import proofs.«406994_j64390149702456_2_alg».proof.Proof.Pre

noncomputable section

namespace Cert.KernelIdeal.Hand

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The region's output array as the product of the packed launch contents of the feature and weight arguments. -/
theorem final_packed (c : Dev nD) :
    (dats m 0 c).arrAt 2 cfg0.N
      = mm (packX (m ((c.tc : Thread nD τ).loc main_arg0))) (packW (m ((c.tc : Thread nD τ).loc main_arg3))) := by
  rw [final]
  show mm (V m c main_v5) (V m c main_v4) = _
  rw [V_main_v5, V_main_v4]

/-- The result buffer after the whole program, under the precondition. -/
theorem result_eq (hpre : Cert.Pre_KernelIdeal m) (c : Dev nD) :
    Pipeline.afterTail₀ cfgs (dats m) 0 (V0 m) [hostOps1, hostOps1_1, hostOps1_2] c main_v14
      = Cert.Gcn.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hf, hW, hsrc⟩ := Cert.Gcn.pre_decode _ _ _ _ _ (hpre c)
  rw [tail_eq, final_packed]
  exact tailK_value _ _ _ _ _ hf hW hsrc

/-- THE RUN: the result at the specification's function of the arguments, the arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v14) = Cert.Gcn.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (result_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefValue.lean ====
/-
  The reference's result, read one operation at a time: gather the source rows, add them into the destination rows,
  multiply by the transposed weight, add the bias — entry by entry the function `Cert.Gcn.result` of the five inputs.
-/
import proofs.«406994_j64390149702456_2_alg».proof.Proof.Gen.ReferenceIdeal.Read
import proofs.«406994_j64390149702456_2_alg».proof.Proof.Spec
import proofs.«406994_j64390149702456_2_alg».proof.Proof.LibGather
import proofs.«406994_j64390149702456_2_alg».proof.Proof.LibScatter

noncomputable section

namespace Cert.ReferenceIdeal.Hand

open Cert.ReferenceIdeal Cert.ReferenceIdeal.Gen Cert.ReferenceIdeal.Read Idealize.ShloMosaic Idealize.ShloMosaic.ValueIdx

/-- The column of destination words the scatter reads is the specification's. -/
theorem v8_eq (x2 : IVec S800000 32) : val_main_v8 (F := Ideal) x2 = Cert.Gcn.colIdx x2 := by
  funext i
  rw [val_main_v8_apply]
  unfold Cert.Gcn.colIdx
  refine congrArg x2 ?_
  funext a
  match a with
  | ⟨0, _⟩ => rfl

/-- The column of source words the gather reads is the specification's: a negative word counted from the end. -/
theorem v5_eq (x1 : IVec S800000 32) : val_main_v5 (F := Ideal) x1 = Cert.Gcn.normIdx x1 := by
  funext i
  have hi : idx_main_v5 i = ix1 ⟨(i 0).val, idx2_lt0 i⟩ := by
    funext a
    match a with
    | ⟨0, _⟩ => rfl
  rw [val_main_v5_apply, val_main_v4_apply, val_main_v1_apply, val_main_v3_apply, val_main_v0_apply,
    val_main_v2_apply, val_main_c_apply, val_main_c_0_apply, hi]
  rfl

/-- The program's accumulating scatter, at any operands: entry (v, k) is the operand's plus the sum over the
    edges landing on v of the update's entry (e, k). -/
theorem scatter_rec_apply (y7 : S50000x64.Idx → EReal) (y8 : IVec S800000x1 32) (y6 : S800000x64.Idx → EReal)
    (v : Fin 50000) (k : Fin 64) :
    Host.scatterAdd (F := Ideal) (φ := .f32) scatter_S50000x64_S800000x1_S800000x64_1_0_0_1 y7 y8 y6 (ix2 v k)
      = y7 (ix2 v k) + ∑ e ∈ Cert.Gcn.landsOn y8 v, y6 (ix2 e k) :=
  Cert.Gcn.scatterAdd_apply scatter_S50000x64_S800000x1_S800000x64_1_0_0_1_wf y7 y8 y6 v k

/-- The program's row gather, at any operands: entry (e, k) is the table's entry (row of edge e, k). -/
theorem gather_rec_apply (y0 : S50000x64.Idx → EReal) (y5 : IVec S800000x1 32) (e : Fin 800000) (k : Fin 64) :
    Host.gather gather_S50000x64_S800000x1_S800000x64_1_0_n_n_0_1_164 y0 y5 (ix2 e k)
      = y0 (ix2 (Cert.Gcn.rowOf y5 e) k) :=
  Cert.Gcn.gather_apply gather_S50000x64_S800000x1_S800000x64_1_0_n_n_0_1_164_wf y0 y5 e k

/-- The scattered array at (v, k). -/
theorem v9_apply (x0 : S50000x64.Idx → EReal) (x1 x2 : IVec S800000 32) (v : Fin 50000) (k : Fin 64) :
    val_main_v9 (F := Ideal) x0 x1 x2 (ix2 v k)
      = val_main_v7 (F := Ideal) (ix2 v k)
        + ∑ e ∈ Cert.Gcn.landsOn (val_main_v8 (F := Ideal) x2) v, val_main_v6 (F := Ideal) x0 x1 (ix2 e k) := by
  unfold val_main_v9
  exact scatter_rec_apply _ _ _ v k

/-- The gathered array at (e, k). -/
theorem v6_apply (x0 : S50000x64.Idx → EReal) (x1 : IVec S800000 32) (e : Fin 800000) (k : Fin 64) :
    val_main_v6 (F := Ideal) x0 x1 (ix2 e k)
      = x0 (ix2 (Cert.Gcn.rowOf (val_main_v5 (F := Ideal) x1) e) k) := by
  unfold val_main_v6
  exact gather_rec_apply _ _ e k

/-- The reference's last stage is the specification's result array. -/
theorem ref_value (x0 : S50000x64.Idx → EReal) (x1 x2 : IVec S800000 32) (x3 : S64x64.Idx → EReal) (x4 : S64.Idx → EReal) :
    val_main_v14 (F := Ideal) x0 x1 x2 x3 x4 = Cert.Gcn.result x0 x1 x2 x3 x4 := by
  funext i
  obtain ⟨v, j, rfl⟩ : ∃ (v : Fin 50000) (j : Fin 64), i = ix2 v j := ⟨i 0, i 1, eq_ix2 i⟩
  rw [Cert.Gcn.result_apply]
  unfold Cert.Gcn.linAgg
  rw [val_main_v14_apply, Ideal.addf_def, val_main_v11_apply]
  -- the bias is broadcast along the rows: entry (v, j) reads b j
  have hb : val_main_v13 (F := Ideal) x4 (ix2 v j) = x4 (ix1 j) := by
    rw [val_main_v13_apply, val_main_v12_apply]
    refine congrArg x4 ?_
    funext a
    match a with
    | ⟨0, _⟩ => rfl
  rw [hb]
  refine congrArg (fun t : EReal => t + x4 (ix1 j)) ?_
  refine Finset.sum_congr rfl fun k _ => ?_
  -- the transposed weight at (k, j) is the weight at (j, k)
  have hw : val_main_v10 (F := Ideal) x3 (ridx_main_v11 (ix2 v j) k) = x3 (ix2 j k) := by
    rw [val_main_v10_apply]
    refine congrArg x3 ?_
    funext a
    refine Fin.ext ?_
    match a with
    | ⟨0, _⟩ => rfl
    | ⟨1, _⟩ => rfl
  have hl : lidx_main_v11 (ix2 v j) k = ix2 v k := funext fun a => Fin.ext (by
    match a with
    | ⟨0, _⟩ => rfl
    | ⟨1, _⟩ => rfl)
  rw [hw, hl]
  refine congrArg (fun t : EReal => t * x3 (ix2 j k)) ?_
  -- the aggregated row: zero plus the sum, over the edges landing on v, of the gathered source rows
  have h7 : val_main_v7 (F := Ideal) (ix2 v k) = 0 := by
    rw [val_main_v7_apply, val_main_cst_apply]
    exact Ideal.ofBits_zero_f32
  rw [v9_apply, h7, v8_eq]
  refine congrArg (fun t : EReal => (0 : EReal) + t) ?_
  refine Finset.sum_congr rfl fun e _ => ?_
  rw [v6_apply, v5_eq]

end Cert.ReferenceIdeal.Hand

end
-- ==== Proof.lean ====
/-
  The kernel computes a graph-convolution layer: every node's output row is the sum, over the edges that end at the
  node, of the source node's feature row, passed through a linear map `h ↦ h · Wᵀ + b`.  The reference gathers and
  sums the raw rows and applies the linear map last; the kernel applies the linear part first (two node rows packed
  into one 128-wide row against a block-diagonal weight, one matrix product per block of 5000 packed rows), then
  gathers, sums, and adds the bias once.  At the extended reals a change of float format is the identity and a sum
  has no order, so the two differ only by where the matrix product stands, and on real features and weights a
  finite sum of products distributes: the two results are one array.  Both programs read a source index the same
  way (a negative word counts from the end, the rest clamps), but the kernel's take fills an out-of-range row with
  a not-a-number value where the reference clamps; the precondition keeps every source word inside
  `[-50000, 50000)`, where indexing the 50000-row table is defined and the two agree.  Destination words need no
  condition: both programs drop the same edges.

  The three frames: the two kernel programs' are the generated frame certificates; the reference's is its generated
  run with the result dropped.  The idealization rewrote nothing, so its conjunct is trivial.
-/
import proofs.«406994_j64390149702456_2_alg».proof.Defs
import proofs.«406994_j64390149702456_2_alg».proof.Proof.Gen.Kernel
import proofs.«406994_j64390149702456_2_alg».proof.Proof.Gen.Kernel.Skeleton
import proofs.«406994_j64390149702456_2_alg».proof.Proof.Gen.Kernel.Launch
import proofs.«406994_j64390149702456_2_alg».proof.Proof.Gen.Kernel.Points
import proofs.«406994_j64390149702456_2_alg».proof.Proof.Gen.Kernel.Frame
import proofs.«406994_j64390149702456_2_alg».proof.Proof.Gen.KernelIdeal
import proofs.«406994_j64390149702456_2_alg».proof.Proof.Gen.KernelIdeal.Skeleton
import proofs.«406994_j64390149702456_2_alg».proof.Proof.Gen.KernelIdeal.Launch
import proofs.«406994_j64390149702456_2_alg».proof.Proof.Gen.KernelIdeal.Points
import proofs.«406994_j64390149702456_2_alg».proof.Proof.Gen.KernelIdeal.Frame
import proofs.«406994_j64390149702456_2_alg».proof.Proof.Gen.ReferenceIdeal
import proofs.«406994_j64390149702456_2_alg».proof.Proof.Gen.Pre_finite_inputs
import proofs.«406994_j64390149702456_2_alg».proof.Proof.Gen.ReferenceIdeal.Run
import proofs.«406994_j64390149702456_2_alg».proof.Proof.Gen.ReferenceIdeal.Read
import proofs.«406994_j64390149702456_2_alg».proof.Proof.KRun
import proofs.«406994_j64390149702456_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result array of the (agreeing) arguments. -/
theorem algebraic : Cert.algebraic_KernelIdeal_ReferenceIdeal := by
  intro m ρ m' ρ' hpre hagree
  refine ⟨_, Cert.KernelIdeal.Hand.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Hand.ref_value,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
